-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S16384 : Shape := ⟨1, ![16384]⟩
abbrev S16384x1 : Shape := ⟨2, ![16384, 1]⟩
abbrev S256x4096 : Shape := ⟨2, ![256, 4096]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S16384x1, .i32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x1, .i32⟩
  | .local _ .vmem, ⟨3, _⟩ => ⟨S256x1, .i32⟩
  | .local _ .vmem, ⟨4, _⟩ => ⟨S256x4096, .f32⟩
  | .local _ .vmem, ⟨5, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384_S16384x1 : S16384.ShapeCasts S16384x1
  iota_S256x4096_d1_w32 : S256x4096.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  natLt_1_32 : 1 < 32
  inb_S256x4096_S256x4096_0_0 : ∀ a, (![0, 0] : Fin 2 → Nat) a + S256x4096.size a ≤ S256x4096.size a
  h_S256x4096 : 0 < S256x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .i32 = 32 ∨ (Rect.block (s := S16384x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384 : Shape := ⟨1, ![16384]⟩
abbrev S4096 : Shape := ⟨1, ![4096]⟩
abbrev S1x4096 : Shape := ⟨2, ![1, 4096]⟩
abbrev S16384x1 : Shape := ⟨2, ![16384, 1]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S4096, .i32⟩
  | .hbm, ⟨3, _⟩ => ⟨S1x4096, .i32⟩
  | .hbm, ⟨4, _⟩ => ⟨S16384x1, .i32⟩
  | .hbm, ⟨5, _⟩ => ⟨S16384x4096, .i32⟩
  | .hbm, ⟨6, _⟩ => ⟨S16384x4096, .i32⟩
  | .hbm, ⟨7, _⟩ => ⟨S16384x4096, .i1⟩
  | .hbm, ⟨8, _⟩ => ⟨S16384x4096, .f32⟩
  | .hbm, ⟨9, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S16384_S16384x1_0 : S16384.BroadcastsInDim S16384x1 (![0] : Fin 1 → Fin S16384x1.rank)
  bcast_S1x4096_S16384x4096_0_1 : S1x4096.BroadcastsInDim S16384x4096 (![0, 1] : Fin 2 → Fin S16384x4096.rank)
  bcast_S16384x1_S16384x4096_0_1 : S16384x1.BroadcastsInDim S16384x4096 (![0, 1] : Fin 2 → Fin S16384x4096.rank)

variable [Facts₀]

class Facts : Prop extends Facts₀ where

variable [Facts]
-- ==== Proof.Spec.lean ====
/-
  The nested-dropout product as ONE function of the two argument arrays.

  Entry (n, j) of the result is x[n, j] times the bit "column j lies below row n's cut-off b[n]", the
  column number written as a 32-bit word and the two compared as SIGNED integers; the bit becomes a
  float by reading it as an unsigned integer, so the factor is 1 on the kept columns and 0 on the
  dropped ones. Both programs compute this entry; they differ only in how the bit becomes a float: one
  converts the one-bit word directly as unsigned, the other first widens it to 32 bits with zeros and
  then converts as signed. On a single bit the two conversions give the same integer, 0 or 1, hence the
  same extended real (`sitofp_widen_bit`). No law of the extended reals' arithmetic is used: the product
  x · bit is the same term on both sides, so finiteness of x plays no part.
-/
import Idealize.ShloMosaic.PureOps.Ideal
import Idealize.ShloMosaic.Lib.ValueIdx

noncomputable section

namespace Cert.MaskSpec

open Idealize.ShloMosaic Idealize.ShloMosaic.ValueIdx

/-- The data array's shape, rows by columns. -/
abbrev SX : Shape := ⟨2, ![16384, 4096]⟩
/-- The cut-offs' shape: one per row. -/
abbrev SB : Shape := ⟨1, ![16384]⟩

variable {F : FTy → Type} [FloatOps F]

/-- The keep bit of entry (n, j): column `j`, as a 32-bit word, is below row `n`'s cut-off, signed. -/
def keep (b : SB.Idx → BitVec 32) (n : Fin 16384) (j : Fin 4096) : BitVec 1 :=
  IntOp.cmpi .slt (BitVec.ofNat 32 j.val) (b (ix1 n))

/-- The masked array: each entry times its keep bit read as an unsigned integer. -/
def maskMul (x : SX.Idx → F .f32) (b : SB.Idx → BitVec 32) : SX.Idx → F .f32 :=
  fun i => FloatOps.mulf (x i) (FloatOps.uitofp .f32 (keep b (i 0) (i 1)))

/-- A one-bit word widened with zeros to 32 bits and read signed is the bit read unsigned: both are 0 or 1. -/
theorem toInt_widen_bit (v : BitVec 1) : (v.setWidth 32).toInt = (v.toNat : ℤ) := by
  revert v; decide

/-- So at the extended reals the signed conversion of the widened bit is the unsigned conversion of the bit. -/
theorem sitofp_widen_bit (v : BitVec 1) :
    FloatOps.sitofp (F := Ideal) .f32 (v.setWidth 32) = FloatOps.uitofp (F := Ideal) .f32 v := by
  show (((v.setWidth 32).toInt : ℝ) : EReal) = ((v.toNat : ℝ) : EReal)
  rw [toInt_widen_bit, Int.cast_natCast]

end Cert.MaskSpec

end
-- ==== Proof.RefValue.lean ====
/-
  The reference's result is the masked array.

  Read one operation at a time at an index (n, j): the column numbers 0 … 4095 are laid along a row and
  repeated down the rows, so the left operand of the comparison at (n, j) is the word of j; the cut-offs
  are stood up as a column and repeated along the rows, so the right operand is b[n]; the comparison is
  the signed "less than", its one-bit result converted as unsigned, and the product taken with x[n, j].
  That is the specification's entry, once the composed index maps of the four broadcasts are seen to
  pick column j of the row of numbers and row n of the cut-offs.
-/
import proofs.«180143_j88476326298285_1_alg».proof.Proof.Gen.ReferenceIdeal.Read
import proofs.«180143_j88476326298285_1_alg».proof.Proof.Spec

noncomputable section

namespace Cert.ReferenceIdeal.MaskRef

open Cert.ReferenceIdeal Cert.ReferenceIdeal.Read Cert.MaskSpec
open Idealize.ShloMosaic Idealize.ShloMosaic.ValueIdx

variable {F : FTy → Type} [FloatOps F]

/-- Through the two broadcasts of the cut-offs, entry (n, j) reads cut-off n. -/
theorem row_index (i : S16384x4096.Idx) : idx_main_v2 (idx_main_v4 i) = ix1 (i 0) :=
  funext fun a => Fin.ext (by match a with | ⟨0, _⟩ => rfl)

/-- Through the two broadcasts of the column numbers, entry (n, j) reads number j. -/
theorem col_index (i : S16384x4096.Idx) : ((idx_main_v1 (idx_main_v3 i)) 0).val = (i 1).val := rfl

/-- The reference's last stage is the masked array of its two arguments. -/
theorem result_eq (x : (⟨S16384x4096, .f32⟩ : BufTy).Contents (Elt F)) (b : (⟨S16384, .i32⟩ : BufTy).Contents (Elt F)) :
    val_main_v7 (F := F) x b = maskMul (F := F) x b := by
  funext i
  rw [val_main_v7_apply, val_main_v6_apply, val_main_v5_apply, val_main_v3_apply, val_main_v1_apply,
    val_main_v0_apply, val_main_v4_apply, val_main_v2_apply, row_index, col_index]
  rfl

end Cert.ReferenceIdeal.MaskRef

end
-- ==== Proof.KernelValue.lean ====
/-
  The kernel's result array is the masked array.

  The kernel walks the 16384 rows in 64 steps of 256 rows. At step t it holds rows 256·t … 256·t + 255
  of the data, all 4096 columns, and the same rows of the cut-offs stood up as a 256 × 1 column; it
  writes back the same rows of the result. Inside a step the entry at local row p and column q is the
  data entry times a 0/1 factor: the column counter, which numbers the columns 0 … 4095 along every row,
  is compared (signed, as 32-bit words) with the row's cut-off repeated along the row; the one-bit
  answer is widened to 32 bits with zeros and converted as a signed integer.

  Three facts put this together. (1) The cut-offs' column is the cut-off vector re-laid in row-major
  order, so its entry (r, 0) is cut-off r. (2) Local row p of step t is global row 256·t + p in all
  three blocks, and columns are not moved, so the step's entry (p, q) is the specification's entry
  (256·t + p, q) — the widened bit read signed being the bit read unsigned. (3) Row r belongs to step
  r / 256, so the 64 row blocks cover the array, and each is written with the specification's values.
-/
import proofs.«180143_j88476326298285_1_alg».proof.Proof.Gen.KernelIdeal.Value
import proofs.«180143_j88476326298285_1_alg».proof.Proof.Spec
import Idealize.ShloMosaic.Lib.ValueIdx
import Idealize.ShloMosaic.Lib.Pipeline.Value
import Idealize.ShloMosaic.Lib.StableHlo.Run

noncomputable section

namespace Cert.KernelIdeal.MaskValue

open Cert.KernelIdeal Cert.KernelIdeal.Gen Cert.MaskSpec
open Idealize.ShloMosaic Idealize.ShloMosaic.TcCoe Idealize.SL.Sem Idealize.ShloMosaic.ValueIdx
open Idealize.ShloMosaic.Pipeline (Dat)

section Body
variable {F : FTy → Type} [FloatOps F]

/-- A 256 × 1 column repeated along the rows: entry (p, q) of the repeat is the column's entry (p, 0). -/
theorem bcast_row (v : IVec S256x1 32) (p : Fin 256) (q : Fin 4096) :
    broadcastTo S256x4096 v broadcasts_S256x1_S256x4096 (ix2 p q) = v (ix2 p (0 : Fin 1)) :=
  broadcastTo_apply v broadcasts_S256x1_S256x4096 (ix2 p q) (ix2 p (0 : Fin 1)) (fun a => match a with
    | ⟨0, _⟩ => by show p.val = if (256 : Nat) = 1 then 0 else p.val; rw [if_neg (by decide)]
    | ⟨1, _⟩ => by show 0 = if (1 : Nat) = 1 then 0 else q.val; rw [if_pos rfl])

/-- The step's stored value at local entry (p, q): the data entry times the converted bit of
    "column q is below the cut-off held at (p, 0)". The column counter reads q, and the re-cast of the
    cut-off column to its own shape changes nothing. -/
theorem pay_apply (v1 : Vec F S256x1 .i32) (v7 : Vec F S256x4096 .f32) (p : Fin 256) (q : Fin 4096) :
    k0_pay1 v1 v7 (ix2 p q)
      = FloatOps.mulf (v7 (ix2 p q)) (FloatOps.sitofp .f32 ((IntOp.cmpi .slt (BitVec.ofNat 32 q.val) (v1 (ix2 p (0 : Fin 1)))).setWidth 32)) := by
  unfold k0_pay1
  show FloatOps.mulf (v7 (ix2 p q)) (FloatOps.sitofp .f32 ((IntOp.cmpi .slt (iota .tc S256x4096 32 [1] iota_S256x4096_d1_w32 (ix2 p q))
      (broadcastTo S256x4096 (shapeCast S256x1 v1 shapeCasts_S256x1_S256x1) broadcasts_S256x1_S256x4096 (ix2 p q))).setWidth 32)) = _
  rw [iota_single_apply, shapeCast_self, bcast_row]

end Body

/-- One step, over plain arrays. `X` is the data, `B` the cut-offs as a column with `B (r, 0) = b r`;
    `x0`, `x1` are the step's two blocks, read from `X` and `B` through `e0`, `e1`, and `e2` places the
    result block; all three send local row p to row 256·k + p and keep the column. Then the stored
    value at a local entry is the masked array at the entry's place: the data entries agree because
    `e0` and `e2` agree, the cut-off is that of the global row, and the widened bit read signed is
    the bit read unsigned. -/
theorem point_entry (X : S16384x4096.Idx → EReal) (B : S16384x1.Idx → BitVec 32) (b : S16384.Idx → BitVec 32)
    (hB : ∀ r : Fin 16384, B (ix2 r (0 : Fin 1)) = b (ix1 r))
    (x0 : Vec Ideal S256x4096 .f32) (x1 : Vec Ideal S256x1 .i32)
    (e0 e2 : S256x4096.Idx → S16384x4096.Idx) (e1 : S256x1.Idx → S16384x1.Idx)
    (h0 : ∀ y, x0 y = X (e0 y)) (h1 : ∀ y, x1 y = B (e1 y))
    (k : Nat)
    (he0 : ∀ y, (e0 y 0).val = k * 256 + (y 0).val ∧ (e0 y 1).val = (y 1).val)
    (he1 : ∀ y, (e1 y 0).val = k * 256 + (y 0).val)
    (he2 : ∀ y, (e2 y 0).val = k * 256 + (y 0).val ∧ (e2 y 1).val = (y 1).val)
    (j : S256x4096.Idx) :
    k0_pay1 (F := Ideal) x1 x0 j = maskMul (F := Ideal) X b (e2 j) := by
  obtain ⟨p, q, rfl⟩ : ∃ (p : Fin 256) (q : Fin 4096), j = ix2 p q := ⟨j 0, j 1, eq_ix2 j⟩
  rw [pay_apply, sitofp_widen_bit, h0, h1]
  have E0 : e0 (ix2 p q) = e2 (ix2 p q) :=
    Shape.idx_ext₂ (by rw [(he0 _).1, (he2 _).1]) (by rw [(he0 _).2, (he2 _).2])
  have E1 : e1 (ix2 p (0 : Fin 1)) = ix2 (n0 := 16384) (n1 := 1) (e2 (ix2 p q) 0) (0 : Fin 1) :=
    Shape.idx_ext₂ (by rw [he1, (he2 _).1]) (by
      have h : (e1 (ix2 p (0 : Fin 1)) 1).val < 1 := (e1 (ix2 p (0 : Fin 1)) 1).isLt
      show (e1 (ix2 p (0 : Fin 1)) 1).val = 0; omega)
  have hb : B (e1 (ix2 p (0 : Fin 1))) = b (ix1 (e2 (ix2 p q) 0)) := by rw [E1]; exact hB _
  rw [E0, hb]
  show _ = FloatOps.mulf (F := Ideal) (X (e2 (ix2 p q)))
    (FloatOps.uitofp (F := Ideal) .f32 (IntOp.cmpi .slt (BitVec.ofNat 32 (e2 (ix2 p q) 1).val) (b (ix1 (e2 (ix2 p q) 0)))))
  rw [(he2 (ix2 p q)).2]

variable (m : (ℓ : Loc nD τ sig) → Buf (Elt Ideal) ℓ) (ρ : Dev nD → PrngReg)

/-- When the kernel starts, the cut-off column is the cut-off vector re-laid as 16384 × 1. -/
theorem V_main_v0 (c : Dev nD) :
    (V m c main_v0 : S16384x1.Idx → BitVec 32)
      = shapeCast S16384x1 (m ((c : Thread nD τ).loc main_arg1) : S16384.Idx → BitVec 32) shapeCasts_S16384_S16384x1 := by
  dsimp only [V, hostOps0]; after_results; rfl

/-- Its entry (r, 0) is cut-off r: both sit at row-major position r. -/
theorem V_main_v0_apply (c : Dev nD) (r : Fin 16384) :
    (V m c main_v0 : S16384x1.Idx → BitVec 32) (ix2 r (0 : Fin 1)) = (m ((c : Thread nD τ).loc main_arg1) : S16384.Idx → BitVec 32) (ix1 r) := by
  rw [V_main_v0]
  exact shapeCast_apply _ _ (ix2 r (0 : Fin 1)) (ix1 r) (by
    rw [Shape.rowMajor_val_two, Shape.rowMajor_val_one]; show r.val = r.val * 1 + 0; omega)

/-- The zero offsets, spelt as a constant function. -/
theorem hz : (![0, 0] : Fin 2 → Nat) = fun _ => 0 := funext fun a => by fin_cases a <;> rfl

/-- At step t every one of the three blocks is block row t, block column 0 (checked over the 64 steps). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What step t writes back is block t of the masked array of the data and the cut-offs: `point_entry`
    at k = t, a block's coordinate being block index × block extent + the coordinate inside the block. -/
theorem flushed_eq (c : Dev nD) (t : Fin cfg0.N) :
    (dats m 0 c).flushed 2 t
      = ((cfg0.win 2).blk t).view.read (Elt Ideal) (maskMul (F := Ideal) (V m c main_arg0) (m ((c : Thread nD τ).loc main_arg1))) := by
  rw [Value.flushed2]
  unfold out0_2
  rw [View.canon_unit_zero hz]
  simp only [View.ld_unit_zero (S := S256x4096) hz, View.ld_unit_zero (S := S256x1) hz]
  obtain ⟨a0, a1, b0, b1, c0, c1⟩ := idx_facts t
  funext j
  exact point_entry (V m c main_arg0) (V m c main_v0) (m ((c : Thread nD τ).loc main_arg1)) (V_main_v0_apply m c)
    (iblk m c 0 t) (iblk m c 1 t)
    ((cfg0.win 0).blk t).view.emb ((cfg0.win 2).blk t).view.emb ((cfg0.win 1).blk t).view.emb
    (fun y => rfl) (fun y => rfl) t.val
    (fun y => ⟨by show win0_0.index t (0 : Fin 2) * 256 + 1 * (y 0).val = _; omega,
               by show win0_0.index t (1 : Fin 2) * 4096 + 1 * (y 1).val = _; omega⟩)
    (fun y => by show win0_1.index t (0 : Fin 2) * 256 + 1 * (y 0).val = _; omega)
    (fun y => ⟨by show win0_2.index t (0 : Fin 2) * 256 + 1 * (y 0).val = _; omega,
               by show win0_2.index t (1 : Fin 2) * 4096 + 1 * (y 1).val = _; omega⟩)
    j

/-- An entry lies in step t's block iff each coordinate lies in the block's range on its axis. -/
theorem mem_blk (t : Fin cfg0.N) (i : S16384x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v1).slice (win0_2.rect t)).set ↔ _
  rw [View.set_slice_whole, Rect.mem_set_unit]
  exact Iff.rfl

/-- Every entry is written by some step: row r by step r / 256. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 64 := N_0
  let t : Fin cfg0.N := ⟨(i 0).val / 256, by rw [hN]; omega⟩
  obtain ⟨_, _, _, _, c0, c1⟩ := idx_facts t
  have ht : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- So after the last step the result array is the masked array of the two arguments. -/
theorem final (c : Dev nD) :
    (dats m 0 c).arrAt 2 cfg0.N = maskMul (F := Ideal) (m ((c : Thread nD τ).loc main_arg0)) (m ((c : Thread nD τ).loc main_arg1)) :=
  ((dats m 0 c).arrAt_eq_of_cover 2 (maskMul (F := Ideal) (V m c main_arg0) (m ((c : Thread nD τ).loc main_arg1)))
    (fun t _ => flushed_eq m c t) cover).trans (by rw [V_main_arg0])

/-- Every fair execution of the kernel program ends with the result at the masked array of the
    arguments and the arguments unchanged. -/
theorem run : θ_run defs (onTc (τ := τ) (main (F := Ideal))) ⟨m, fun _ => 0, ρ⟩ fun r => ∀ c : Dev nD,
      r.2.mem ((c : Thread nD τ).loc main_v1) = maskMul (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.MaskValue

end
-- ==== Proof.lean ====
/-
  Nested dropout, out[n, j] = x[n, j] · [j < b[n]] over a 16384 × 4096 array with one cut-off per row:
  a kernel that walks the rows in 64 blocks of 256 against the array-level reference, compared over the
  extended reals.

  Both programs end with the SAME function of their two arguments, `Cert.MaskSpec.maskMul`: the entry
  times the 0/1 value of the signed comparison "column number below the row's cut-off". The reference is
  that function one operation at a time (the column numbers and the cut-offs each broadcast to the full
  shape, compared, the bit converted as unsigned, the product). The kernel is that function block row by
  block row (the column counter against the block's cut-offs repeated along the rows, the bit widened to
  32 bits and converted as signed — the same integer 0 or 1 —, the product), the 64 block rows covering
  the array. Since the two sides are one term, nothing is asked of the extended reals' arithmetic and the
  finiteness of the input is not used. The idealized kernel is the kernel's own text read over the
  extended reals, so there is nothing to preserve; the three termination-and-frame claims are the
  generated frames for the two kernel programs and the reference's run with its result dropped.
-/
import proofs.«180143_j88476326298285_1_alg».proof.Defs
import proofs.«180143_j88476326298285_1_alg».proof.Proof.Gen.Kernel
import proofs.«180143_j88476326298285_1_alg».proof.Proof.Gen.Kernel.Skeleton
import proofs.«180143_j88476326298285_1_alg».proof.Proof.Gen.Kernel.Launch
import proofs.«180143_j88476326298285_1_alg».proof.Proof.Gen.Kernel.Points
import proofs.«180143_j88476326298285_1_alg».proof.Proof.Gen.Kernel.Frame
import proofs.«180143_j88476326298285_1_alg».proof.Proof.Gen.KernelIdeal
import proofs.«180143_j88476326298285_1_alg».proof.Proof.Gen.KernelIdeal.Skeleton
import proofs.«180143_j88476326298285_1_alg».proof.Proof.Gen.KernelIdeal.Launch
import proofs.«180143_j88476326298285_1_alg».proof.Proof.Gen.KernelIdeal.Points
import proofs.«180143_j88476326298285_1_alg».proof.Proof.Gen.KernelIdeal.Frame
import proofs.«180143_j88476326298285_1_alg».proof.Proof.Gen.ReferenceIdeal
import proofs.«180143_j88476326298285_1_alg».proof.Proof.Gen.Pre_finite_inputs
import proofs.«180143_j88476326298285_1_alg».proof.Proof.Gen.KernelIdeal.Value
import proofs.«180143_j88476326298285_1_alg».proof.Proof.Gen.ReferenceIdeal.Run
import proofs.«180143_j88476326298285_1_alg».proof.Proof.Gen.ReferenceIdeal.Read
import Idealize.ShloMosaic.Adequacy
import Idealize.ShloMosaic.Init
import proofs.«180143_j88476326298285_1_alg».proof.Proof.Spec
import proofs.«180143_j88476326298285_1_alg».proof.Proof.RefValue
import proofs.«180143_j88476326298285_1_alg».proof.Proof.KernelValue

noncomputable section

namespace Cert.Proof

open Idealize.ShloMosaic Idealize.SL.Sem

/-- The word-level kernel terminates without fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the data and the cut-offs, both programs end with the masked array of
    those arguments: the kernel by its block rows, the reference by its operations read at an index. -/
theorem algebraic : Cert.algebraic_KernelIdeal_ReferenceIdeal := by
  intro m ρ m' ρ' _ hagree
  refine ⟨_, Cert.KernelIdeal.MaskValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.MaskRef.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
